-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x3 : Shape := ⟨2, ![40000, 3]⟩
abbrev S2x640000 : Shape := ⟨2, ![2, 640000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x3 : S_.BroadcastsInDim S40000x3 (![] : Fin 0 → Fin S40000x3.rank)
  reducesTo_S40000x3_S_d0_1 : S40000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S131x128 : S_.BroadcastsInDim S131x128 (![] : Fin 0 → Fin S131x128.rank)
  reducesTo_S131x128_S_d0_1 : S131x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x3 .f32) (main_arg6 : FVec F S3 .f32) (main_arg7 : FVec F S131x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg5
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S131x128 .f32 := Host.absf main_arg7
  let main_cst_10 : FVec F S_ .f32 := constant S_ .f32 0x7F800000#32
  let main_v30 : FVec F S131x128 .f32 := broadcastInDim S131x128 ![] bcast_S_S131x128 main_cst_10
  let main_v31 : IVec S131x128 1 := cmpf .olt main_v29 main_v30
  let main_c_11 : IVec S_ 1 := constantI S_ 1 1#1
  let main_v32 : IVec S_ 1 := (fun x v => Host.reduce IntOp.andi x v reducesTo_S131x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S40000x128 .f32) (main_arg1 : FVec F S40000x3 .f32) (main_arg2 : IVec S2x640000 32) (main_arg3 : FVec F S128x128 .f32) (main_arg4 : FVec F S128 .f32) (main_arg5 : FVec F S128x3 .f32) (main_arg6 : FVec F S3 .f32) (main_arg7 : FVec F S131x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S40000x128 : Shape := ⟨2, ![40000, 128]⟩
abbrev S40000x3 : Shape := ⟨2, ![40000, 3]⟩
abbrev S2x640000 : Shape := ⟨2, ![2, 640000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x640000 : Shape := ⟨2, ![1, 640000]⟩
abbrev S640000 : Shape := ⟨1, ![640000]⟩
abbrev S4000x128 : Shape := ⟨2, ![4000, 128]⟩
abbrev S4000x3 : Shape := ⟨2, ![4000, 3]⟩
abbrev S1x128 : Shape := ⟨2, ![1, 128]⟩
abbrev S1x3 : Shape := ⟨2, ![1, 3]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S3x128 : Shape := ⟨2, ![3, 128]⟩
abbrev S5000x3 : Shape := ⟨2, ![5000, 3]⟩
abbrev S5000x128 : Shape := ⟨2, ![5000, 128]⟩

abbrev nBuf : Space → Nat
  | .hbm => 64
  | .vmem => 27
  | .smem => 0
  | _ => 0

abbrev bufTy : (tb : Table) → Fin (tcTables nBuf tb) → BufTy
  | .hbm, ⟨0, _⟩ => ⟨S40000x128, .f32⟩
  | .hbm, ⟨1, _⟩ => ⟨S40000x3, .f32⟩
  | .hbm, ⟨2, _⟩ => ⟨S2x640000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S40000x3, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x3, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x3, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x3, .f32⟩
  | .hbm, ⟨45, _⟩ => ⟨S640000x3, .f32⟩
  | .hbm, ⟨46, _⟩ => ⟨S640000x3, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S3x128, .f32⟩
  | .hbm, ⟨57, _⟩ => ⟨S128x128, .f32⟩
  | .hbm, ⟨58, _⟩ => ⟨S640000x128, .f32⟩
  | .hbm, ⟨59, _⟩ => ⟨S_, .f32⟩
  | .hbm, ⟨60, _⟩ => ⟨S40000x128, .f32⟩
  | .hbm, ⟨61, _⟩ => ⟨S640000x1, .i32⟩
  | .hbm, ⟨62, _⟩ => ⟨S40000x128, .f32⟩
  | .hbm, ⟨63, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S128x3, .f32⟩
  | .local _ .vmem, ⟨5, _⟩ => ⟨S3, .f32⟩
  | .local _ .vmem, ⟨6, _⟩ => ⟨S4000x3, .f32⟩
  | .local _ .vmem, ⟨7, _⟩ => ⟨S4000x3, .f32⟩
  | .local _ .vmem, ⟨8, _⟩ => ⟨S5000x3, .f32⟩
  | .local _ .vmem, ⟨9, _⟩ => ⟨S5000x3, .f32⟩
  | .local _ .vmem, ⟨10, _⟩ => ⟨S5000x128, .f32⟩
  | .local _ .vmem, ⟨11, _⟩ => ⟨S5000x128, .f32⟩
  | .local _ .vmem, ⟨12, _⟩ => ⟨S3x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S4000x128, .f32⟩
  | .local _ .vmem, ⟨26, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  bcast_S_S640000 : S_.BroadcastsInDim S640000 (![] : Fin 0 → Fin S640000.rank)
  bcast_S640000_S640000x1_0 : S640000.BroadcastsInDim S640000x1 (![0] : Fin 1 → Fin S640000x1.rank)
  slices_S131x128_S3x128_0_0 : S131x128.Slices ![0, 0] S3x128
  slices_S131x128_S128x128_3_0 : S131x128.Slices ![3, 0] S128x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  shapeCasts_S128x128_S128x128 : S128x128.ShapeCasts S128x128
  broadcasts_S1x128_S5000x128 : S1x128.Broadcasts S5000x128
  bcast_S_S40000x128 : S_.BroadcastsInDim S40000x128 (![] : Fin 0 → Fin S40000x128.rank)
  shapeCasts_S4000x128_S4000x128 : S4000x128.ShapeCasts S4000x128
  dot_S4000x128_S128x128_S4000x128_1_0_0_1_n_n_wf : DotDims.WF S4000x128 S128x128 S4000x128 [1] [0] [0] [1] [] []
  dot_S4000x128_S128x3_S4000x3_1_0_0_1_n_n_wf : DotDims.WF S4000x128 S128x3 S4000x3 [1] [0] [0] [1] [] []
  gather_S40000x3_S640000x1_S640000x3_1_0_n_n_0_1_13_wf : GatherDims.WF S40000x3 S640000x1 S640000x3 [1] [0] [] [0] [] 1 ![1, 3]
  gather_S40000x128_S640000x1_S640000x128_1_0_n_n_0_1_1128_wf : GatherDims.WF S40000x128 S640000x1 S640000x128 [1] [0] [] [0] [] 1 ![1, 128]
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x3.size a ≤ S40000x3.size a
  hwx0_5 : ∀ i : grid0.Coords, EltTy.bits .f32 = 32 ∨ (Rect.block (s := S40000x3) S4000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S640000x3.size a
  hwx1_0 : ∀ i : grid1.Coords, EltTy.bits .f32 = 32 ∨ (Rect.block (s := S640000x3) S5000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S640000x128.size a
  hwx1_5 : ∀ i : grid1.Coords, EltTy.bits .f32 = 32 ∨ (Rect.block (s := S640000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S40000x128.size a
  hwx2_6 : ∀ i : grid2.Coords, EltTy.bits .f32 = 32 ∨ (Rect.block (s := S40000x128) S4000x128.size (cc2_transform_6 i) (hinb2_6 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x3_S4000x3_1_0_0_1_n_n : DotDims S4000x128 S128x3 S4000x3 where
  lhsContracting := [1]
  rhsContracting := [0]
  lhsNonContracting := [0]
  rhsNonContracting := [1]
  lhsBatch := []
  rhsBatch := []
  wf := dot_S4000x128_S128x3_S4000x3_1_0_0_1_n_n_wf
def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S40000x3 : Shape := ⟨2, ![40000, 3]⟩
abbrev S2x640000 : Shape := ⟨2, ![2, 640000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S1x3 : Shape := ⟨2, ![1, 3]⟩
abbrev S640000x1 : Shape := ⟨2, ![640000, 1]⟩
abbrev S640000x3 : Shape := ⟨2, ![640000, 3]⟩
abbrev S640000x128 : Shape := ⟨2, ![640000, 128]⟩
abbrev S640000x131 : Shape := ⟨2, ![640000, 131]⟩

abbrev nBuf : Space → Nat
  | .hbm => 103
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x3, .f32⟩
  | .hbm, ⟨2, _⟩ => ⟨S2x640000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S40000x128, .f32⟩
  | .hbm, ⟨18, _⟩ => ⟨S1x128, .f32⟩
  | .hbm, ⟨19, _⟩ => ⟨S40000x128, .f32⟩
  | .hbm, ⟨20, _⟩ => ⟨S40000x128, .f32⟩
  | .hbm, ⟨21, _⟩ => ⟨S_, .f32⟩
  | .hbm, ⟨22, _⟩ => ⟨S40000x128, .f32⟩
  | .hbm, ⟨23, _⟩ => ⟨S40000x128, .i1⟩
  | .hbm, ⟨24, _⟩ => ⟨S_, .f32⟩
  | .hbm, ⟨25, _⟩ => ⟨S40000x128, .f32⟩
  | .hbm, ⟨26, _⟩ => ⟨S40000x128, .f32⟩
  | .hbm, ⟨27, _⟩ => ⟨S40000x128, .f32⟩
  | .hbm, ⟨28, _⟩ => ⟨S40000x3, .f32⟩
  | .hbm, ⟨29, _⟩ => ⟨S1x3, .f32⟩
  | .hbm, ⟨30, _⟩ => ⟨S40000x3, .f32⟩
  | .hbm, ⟨31, _⟩ => ⟨S40000x3, .f32⟩
  | .hbm, ⟨32, _⟩ => ⟨S40000x3, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x3, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x3, .f32⟩
  | .hbm, ⟨51, _⟩ => ⟨S640000x3, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x3, .f32⟩
  | .hbm, ⟨61, _⟩ => ⟨S640000x3, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S640000x131, .f32⟩
  | .hbm, ⟨72, _⟩ => ⟨S640000x128, .f32⟩
  | .hbm, ⟨73, _⟩ => ⟨S1x128, .f32⟩
  | .hbm, ⟨74, _⟩ => ⟨S640000x128, .f32⟩
  | .hbm, ⟨75, _⟩ => ⟨S640000x128, .f32⟩
  | .hbm, ⟨76, _⟩ => ⟨S_, .f32⟩
  | .hbm, ⟨77, _⟩ => ⟨S640000x128, .f32⟩
  | .hbm, ⟨78, _⟩ => ⟨S640000x128, .i1⟩
  | .hbm, ⟨79, _⟩ => ⟨S_, .f32⟩
  | .hbm, ⟨80, _⟩ => ⟨S640000x128, .f32⟩
  | .hbm, ⟨81, _⟩ => ⟨S640000x128, .f32⟩
  | .hbm, ⟨82, _⟩ => ⟨S640000x128, .f32⟩
  | .hbm, ⟨83, _⟩ => ⟨S_, .f32⟩
  | .hbm, ⟨84, _⟩ => ⟨S40000x128, .f32⟩
  | .hbm, ⟨85, _⟩ => ⟨S640000x1, .i32⟩
  | .hbm, ⟨86, _⟩ => ⟨S40000x128, .f32⟩
  | .hbm, ⟨87, _⟩ => ⟨S40000x128, .f32⟩
  | .hbm, ⟨88, _⟩ => ⟨S1x128, .f32⟩
  | .hbm, ⟨89, _⟩ => ⟨S40000x128, .f32⟩
  | .hbm, ⟨90, _⟩ => ⟨S40000x128, .f32⟩
  | .hbm, ⟨91, _⟩ => ⟨S_, .f32⟩
  | .hbm, ⟨92, _⟩ => ⟨S40000x128, .f32⟩
  | .hbm, ⟨93, _⟩ => ⟨S40000x128, .i1⟩
  | .hbm, ⟨94, _⟩ => ⟨S_, .f32⟩
  | .hbm, ⟨95, _⟩ => ⟨S40000x128, .f32⟩
  | .hbm, ⟨96, _⟩ => ⟨S40000x128, .f32⟩
  | .hbm, ⟨97, _⟩ => ⟨S40000x128, .f32⟩
  | .hbm, ⟨98, _⟩ => ⟨S40000x128, .f32⟩
  | .hbm, ⟨99, _⟩ => ⟨S1x128, .f32⟩
  | .hbm, ⟨100, _⟩ => ⟨S40000x128, .f32⟩
  | .hbm, ⟨101, _⟩ => ⟨S40000x128, .f32⟩
  | .hbm, ⟨102, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S3_S1x3_1 : S3.BroadcastsInDim S1x3 (![1] : Fin 1 → Fin S1x3.rank)
  bcast_S1x3_S40000x3_0_1 : S1x3.BroadcastsInDim S40000x3 (![0, 1] : Fin 2 → Fin S40000x3.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x3_S640000x128_S640000x131_d1 : Shape.Concatenates [S640000x3, S640000x128] S640000x131 1
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  dot_S40000x128_S128x128_S40000x128_1_0_0_1_n_n_wf : DotDims.WF S40000x128 S128x128 S40000x128 [1] [0] [0] [1] [] []
  dot_S40000x128_S128x3_S40000x3_1_0_0_1_n_n_wf : DotDims.WF S40000x128 S128x3 S40000x3 [1] [0] [0] [1] [] []
  gather_S40000x3_S640000x1_S640000x3_1_0_n_n_0_1_13_wf : GatherDims.WF S40000x3 S640000x1 S640000x3 [1] [0] [] [0] [] 1 ![1, 3]
  gather_S40000x128_S640000x1_S640000x128_1_0_n_n_0_1_1128_wf : GatherDims.WF S40000x128 S640000x1 S640000x128 [1] [0] [] [0] [] 1 ![1, 128]
  dot_S640000x131_S131x128_S640000x128_1_0_0_1_n_n_wf : DotDims.WF S640000x131 S131x128 S640000x128 [1] [0] [0] [1] [] []
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x3_S40000x3_1_0_0_1_n_n : DotDims S40000x128 S128x3 S40000x3 where
  lhsContracting := [1]
  rhsContracting := [0]
  lhsNonContracting := [0]
  rhsNonContracting := [1]
  lhsBatch := []
  rhsBatch := []
  wf := dot_S40000x128_S128x3_S40000x3_1_0_0_1_n_n_wf
def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x131_S131x128_S640000x128_1_0_0_1_n_n : DotDims S640000x131 S131x128 S640000x128 where
  lhsContracting := [1]
  rhsContracting := [0]
  lhsNonContracting := [0]
  rhsNonContracting := [1]
  lhsBatch := []
  rhsBatch := []
  wf := dot_S640000x131_S131x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.Layers.lean ====
/-
  The layers of the message-passing update, as functions of extended-real arrays read entry by entry.

  A dense layer is `x·W + b`: entry (r, j) is the sum over the contracted coordinate c of x(r, c)·W(c, j), plus b(j).
  The leaky rectifier keeps a value that is at least zero and scales any other by the slope's word.
  Every layer here acts on each ROW of its first operand separately; that is what lets a block of rows be computed
  apart from the others (`*_rows` below), and it is the only fact about the layers that the tiling needs.

  Also here: a matrix product into a zero accumulator, and the host's product, read at an entry as that sum; one row
  broadcast down the rows, read at an entry; and the one law between the two programs: a product whose left operand
  is two arrays joined along the contracted axis is the sum of the two products with the matching rows of the right
  operand (a finite sum split at the join; no finiteness is needed, only that + is commutative and associative).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Layers

open Idealize.ShloMosaic Idealize.ShloMosaic.ValueIdx

/-- The leaky rectifier on an extended real: the value itself when it is at least zero, else the slope times it. -/
def lrelu (v : EReal) : EReal :=
  Scalar.select (FloatOps.cmpf (F := Ideal) (φ := .f32) .oge v (Ideal.ofBits .f32 0x00000000#32)) v
    (Ideal.ofBits .f32 0x3C23D70A#32 * v)

/-- The matrix product at entry (r, j): the sum over the contracted coordinate. -/
def mm {n k d : Nat} (x : (⟨2, ![n, k]⟩ : Shape).Idx → EReal) (W : (⟨2, ![k, d]⟩ : Shape).Idx → EReal) (r : Fin n) (j : Fin d) : EReal :=
  ∑ c : Fin k, x (ix2 r c) * W (ix2 c j)

/-- A dense layer `x·W + b`, entry by entry. -/
def dense {n k d : Nat} (x : (⟨2, ![n, k]⟩ : Shape).Idx → EReal) (W : (⟨2, ![k, d]⟩ : Shape).Idx → EReal)
    (b : (⟨1, ![d]⟩ : Shape).Idx → EReal) : (⟨2, ![n, d]⟩ : Shape).Idx → EReal :=
  fun i => mm x W (i 0) (i 1) + b (ix1 (i 1))

/-- A dense layer followed by the leaky rectifier. -/
def hidden {n k d : Nat} (x : (⟨2, ![n, k]⟩ : Shape).Idx → EReal) (W : (⟨2, ![k, d]⟩ : Shape).Idx → EReal)
    (b : (⟨1, ![d]⟩ : Shape).Idx → EReal) : (⟨2, ![n, d]⟩ : Shape).Idx → EReal :=
  fun i => lrelu (dense x W b i)

/-- The offset predictor: two dense layers, the rectifier between them, the hyperbolic tangent after. -/
def offsetNet {n k h d : Nat} (x : (⟨2, ![n, k]⟩ : Shape).Idx → EReal) (W1 : (⟨2, ![k, h]⟩ : Shape).Idx → EReal)
    (b1 : (⟨1, ![h]⟩ : Shape).Idx → EReal) (W2 : (⟨2, ![h, d]⟩ : Shape).Idx → EReal) (b2 : (⟨1, ![d]⟩ : Shape).Idx → EReal) :
    (⟨2, ![n, d]⟩ : Shape).Idx → EReal :=
  fun i => Ideal.tanh (dense (hidden x W1 b1) W2 b2 i)

/-- The edge message: the two partial products added, the bias, the rectifier. -/
def edgeNet {n p k d : Nat} (rel : (⟨2, ![n, p]⟩ : Shape).Idx → EReal) (xs : (⟨2, ![n, k]⟩ : Shape).Idx → EReal)
    (Wr : (⟨2, ![p, d]⟩ : Shape).Idx → EReal) (Wx : (⟨2, ![k, d]⟩ : Shape).Idx → EReal) (b : (⟨1, ![d]⟩ : Shape).Idx → EReal) :
    (⟨2, ![n, d]⟩ : Shape).Idx → EReal :=
  fun i => lrelu (mm rel Wr (i 0) (i 1) + mm xs Wx (i 0) (i 1) + b (ix1 (i 1)))

/-- The node update: the residual plus two dense layers of the aggregate with the rectifier between them. -/
def updateNet {n k h d : Nat} (x : (⟨2, ![n, d]⟩ : Shape).Idx → EReal) (a : (⟨2, ![n, k]⟩ : Shape).Idx → EReal)
    (W1 : (⟨2, ![k, h]⟩ : Shape).Idx → EReal) (b1 : (⟨1, ![h]⟩ : Shape).Idx → EReal)
    (W2 : (⟨2, ![h, d]⟩ : Shape).Idx → EReal) (b2 : (⟨1, ![d]⟩ : Shape).Idx → EReal) : (⟨2, ![n, d]⟩ : Shape).Idx → EReal :=
  fun i => x i + dense (hidden a W1 b1) W2 b2 i

/-! ## Each layer acts row by row -/

section Rows
variable {N n k h d p : Nat}

/-- If block row `r` of `xb` is row `R` of `x`, the products agree there. -/
theorem mm_rows (xb : (⟨2, ![n, k]⟩ : Shape).Idx → EReal) (x : (⟨2, ![N, k]⟩ : Shape).Idx → EReal)
    (W : (⟨2, ![k, d]⟩ : Shape).Idx → EReal) (r : Fin n) (R : Fin N) (hx : ∀ c, xb (ix2 r c) = x (ix2 R c)) (j : Fin d) :
    mm xb W r j = mm x W R j :=
  Finset.sum_congr rfl fun c _ => by rw [hx c]

theorem dense_rows (xb : (⟨2, ![n, k]⟩ : Shape).Idx → EReal) (x : (⟨2, ![N, k]⟩ : Shape).Idx → EReal)
    (W : (⟨2, ![k, d]⟩ : Shape).Idx → EReal) (b : (⟨1, ![d]⟩ : Shape).Idx → EReal) (r : Fin n) (R : Fin N)
    (hx : ∀ c, xb (ix2 r c) = x (ix2 R c)) (j : Fin d) : dense xb W b (ix2 r j) = dense x W b (ix2 R j) := by
  show mm xb W r j + b (ix1 j) = mm x W R j + b (ix1 j)
  rw [mm_rows xb x W r R hx j]

theorem hidden_rows (xb : (⟨2, ![n, k]⟩ : Shape).Idx → EReal) (x : (⟨2, ![N, k]⟩ : Shape).Idx → EReal)
    (W : (⟨2, ![k, d]⟩ : Shape).Idx → EReal) (b : (⟨1, ![d]⟩ : Shape).Idx → EReal) (r : Fin n) (R : Fin N)
    (hx : ∀ c, xb (ix2 r c) = x (ix2 R c)) (j : Fin d) : hidden xb W b (ix2 r j) = hidden x W b (ix2 R j) :=
  congrArg lrelu (dense_rows xb x W b r R hx j)

theorem offsetNet_rows (xb : (⟨2, ![n, k]⟩ : Shape).Idx → EReal) (x : (⟨2, ![N, k]⟩ : Shape).Idx → EReal)
    (W1 : (⟨2, ![k, h]⟩ : Shape).Idx → EReal) (b1 : (⟨1, ![h]⟩ : Shape).Idx → EReal)
    (W2 : (⟨2, ![h, d]⟩ : Shape).Idx → EReal) (b2 : (⟨1, ![d]⟩ : Shape).Idx → EReal) (r : Fin n) (R : Fin N)
    (hx : ∀ c, xb (ix2 r c) = x (ix2 R c)) (j : Fin d) :
    offsetNet xb W1 b1 W2 b2 (ix2 r j) = offsetNet x W1 b1 W2 b2 (ix2 R j) :=
  congrArg Ideal.tanh (dense_rows _ _ W2 b2 r R (fun c => hidden_rows xb x W1 b1 r R hx c) j)

theorem edgeNet_rows (relb : (⟨2, ![n, p]⟩ : Shape).Idx → EReal) (rel : (⟨2, ![N, p]⟩ : Shape).Idx → EReal)
    (xsb : (⟨2, ![n, k]⟩ : Shape).Idx → EReal) (xs : (⟨2, ![N, k]⟩ : Shape).Idx → EReal)
    (Wr : (⟨2, ![p, d]⟩ : Shape).Idx → EReal) (Wx : (⟨2, ![k, d]⟩ : Shape).Idx → EReal) (b : (⟨1, ![d]⟩ : Shape).Idx → EReal)
    (r : Fin n) (R : Fin N) (hr : ∀ c, relb (ix2 r c) = rel (ix2 R c)) (hx : ∀ c, xsb (ix2 r c) = xs (ix2 R c)) (j : Fin d) :
    edgeNet relb xsb Wr Wx b (ix2 r j) = edgeNet rel xs Wr Wx b (ix2 R j) := by
  show lrelu (mm relb Wr r j + mm xsb Wx r j + b (ix1 j)) = lrelu (mm rel Wr R j + mm xs Wx R j + b (ix1 j))
  rw [mm_rows relb rel Wr r R hr j, mm_rows xsb xs Wx r R hx j]

theorem updateNet_rows (xb : (⟨2, ![n, d]⟩ : Shape).Idx → EReal) (x : (⟨2, ![N, d]⟩ : Shape).Idx → EReal)
    (ab : (⟨2, ![n, k]⟩ : Shape).Idx → EReal) (a : (⟨2, ![N, k]⟩ : Shape).Idx → EReal)
    (W1 : (⟨2, ![k, h]⟩ : Shape).Idx → EReal) (b1 : (⟨1, ![h]⟩ : Shape).Idx → EReal)
    (W2 : (⟨2, ![h, d]⟩ : Shape).Idx → EReal) (b2 : (⟨1, ![d]⟩ : Shape).Idx → EReal) (r : Fin n) (R : Fin N)
    (hx : ∀ c, xb (ix2 r c) = x (ix2 R c)) (ha : ∀ c, ab (ix2 r c) = a (ix2 R c)) (j : Fin d) :
    updateNet xb ab W1 b1 W2 b2 (ix2 r j) = updateNet x a W1 b1 W2 b2 (ix2 R j) := by
  show xb (ix2 r j) + dense (hidden ab W1 b1) W2 b2 (ix2 r j) = x (ix2 R j) + dense (hidden a W1 b1) W2 b2 (ix2 R j)
  rw [hx j, dense_rows _ _ W2 b2 r R (fun c => hidden_rows ab a W1 b1 r R ha c) j]

end Rows

/-! ## The operations of the two programs read at an entry -/

/-- A plain matrix product into the zero accumulator, at entry (a, b), is the sum over the contracted coordinate. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine Eq.trans ?_ (StackMember.dotGeneral_plain_apply prec A B a b)
  show _ = FloatOps.dotGeneral _ prec _ A B (ix2 a b)
  rw [Ideal.dotGeneral_apply]

/-- One row `[d]`, cast to `[1, d]` and broadcast down `n` rows, read at (r, j), is the row at j. -/
theorem rowBroadcast_apply {n d : Nat} (b : (⟨1, ![d]⟩ : Shape).Idx → EReal)
    (hc : (⟨1, ![d]⟩ : Shape).ShapeCasts ⟨2, ![1, d]⟩) (hb : (⟨2, ![1, d]⟩ : Shape).Broadcasts ⟨2, ![n, d]⟩) (r : Fin n) (j : Fin d) :
    broadcastTo ⟨2, ![n, d]⟩ (shapeCast ⟨2, ![1, d]⟩ b hc) hb (ix2 r j) = b (ix1 j) := by
  rw [broadcastTo_1b_ab_apply, shapeCast_a_1a_apply]

/-! ## The same, for whole vectors (what a kernel body's payload is made of) -/

/-- A kernel's product of two arrays cut to the half-width format (the identity on extended reals) into the zero
    accumulator is the matrix product, entry by entry. -/
theorem kernel_mm {m k n : Nat} (x : FVec Ideal ⟨2, ![m, k]⟩ .f32) (W : FVec Ideal ⟨2, ![k, n]⟩ .f32)
    (hx : FTy.bf16.bits < FTy.f32.bits) (hW : FTy.bf16.bits < FTy.f32.bits) :
    matmul (DotDims.plain m k n) none (truncf .bf16 x hx) (truncf .bf16 W hW) (constant (F := Ideal) ⟨2, ![m, n]⟩ .f32 0x00000000#32)
      = fun i => mm x W (i 0) (i 1) := by
  funext i
  obtain ⟨a, b, rfl⟩ : ∃ (a : Fin m) (b : Fin n), i = ix2 a b := ⟨i 0, i 1, eq_ix2 i⟩
  exact matmul_zero_apply none (truncf .bf16 x hx) (truncf .bf16 W hW) a b

/-- The host's product of two arrays is the matrix product, entry by entry. -/
theorem host_mm {m k n : Nat} (x : FVec Ideal ⟨2, ![m, k]⟩ .f32) (W : FVec Ideal ⟨2, ![k, n]⟩ .f32) :
    Host.dotGeneral (DotDims.plain m k n) none x W = fun i => mm x W (i 0) (i 1) := by
  funext i
  obtain ⟨a, b, rfl⟩ : ∃ (a : Fin m) (b : Fin n), i = ix2 a b := ⟨i 0, i 1, eq_ix2 i⟩
  exact StackMember.dotGeneral_plain_apply none x W a b

/-- One row cast to `[1, d]` and broadcast down the rows, as a function of the entry. -/
theorem kernel_rowBias {n d : Nat} (b : (⟨1, ![d]⟩ : Shape).Idx → EReal)
    (hc : (⟨1, ![d]⟩ : Shape).ShapeCasts ⟨2, ![1, d]⟩) (hb : (⟨2, ![1, d]⟩ : Shape).Broadcasts ⟨2, ![n, d]⟩) :
    broadcastTo ⟨2, ![n, d]⟩ (shapeCast ⟨2, ![1, d]⟩ b hc) hb = fun i => b (ix1 (i 1)) := by
  funext i
  obtain ⟨r, j, rfl⟩ : ∃ (r : Fin n) (j : Fin d), i = ix2 r j := ⟨i 0, i 1, eq_ix2 i⟩
  exact rowBroadcast_apply b hc hb r j

/-- The host's form of the same: the row placed on axis 1 of `[1, d]`, then on axes 0 and 1 of `[n, d]`. -/
theorem host_rowBias {n d : Nat} (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) :
    broadcastInDim ⟨2, ![n, d]⟩ ![0, 1] h2 (broadcastInDim ⟨2, ![1, d]⟩ ![1] h1 b) = fun i => b (ix1 (i 1)) := by
  funext i
  obtain ⟨r, j, rfl⟩ : ∃ (r : Fin n) (j : Fin d), i = ix2 r j := ⟨i 0, i 1, eq_ix2 i⟩
  rw [broadcastInDim_apply ![0, 1] h2 _ (ix2 r j) (ix2 (0 : Fin 1) j) (fun a => by
    match a with
    | ⟨0, _⟩ => rfl
    | ⟨1, _⟩ =>
      show j.val = if d = 1 then 0 else j.val
      split
      · have := j.isLt; omega
      · rfl)]
  rw [broadcastInDim_apply ![1] h1 b (ix2 (0 : Fin 1) j) (ix1 j) (fun a => by
    match a with
    | ⟨0, _⟩ =>
      show j.val = if d = 1 then 0 else j.val
      split
      · have := j.isLt; omega
      · rfl)]
  rfl

/-- A kernel's leaky rectifier on a vector: compare with the zero splat, scale by the slope splat, select. -/
theorem kernel_lrelu {s : Shape} (v : FVec Ideal s .f32) :
    select (cmpf .oge v (broadcast s (Scalar.ofBits (F := Ideal) .f32 0x00000000#32))) v
        (mulf (broadcast s (Scalar.ofBits (F := Ideal) .f32 0x3C23D70A#32)) v)
      = fun i => lrelu (v i) := rfl

/-- The host's leaky rectifier on a vector: the splats are rank-0 constants placed on no axis. -/
theorem host_lrelu {s : Shape} (v : FVec Ideal s .f32) (h0 : (⟨0, ![]⟩ : Shape).BroadcastsInDim s ![]) :
    select (cmpf .oge v (broadcastInDim s ![] h0 (constant (F := Ideal) ⟨0, ![]⟩ .f32 0x00000000#32))) v
        (mulf (broadcastInDim s ![] h0 (constant (F := Ideal) ⟨0, ![]⟩ .f32 0x3C23D70A#32)) v)
      = fun i => lrelu (v i) := rfl

/-! ## The join law -/

/-- The host's product of two arrays JOINED along the contracted axis with a weight array is the sum of the two
    products with the weight's first `p` rows and its remaining `k` rows: the sum over the `p + k` contracted
    coordinates split at `p`. Addition on the extended reals is commutative and associative, which is all a split of
    a finite sum uses; nothing here needs a finite entry. -/
theorem host_mm_join {n p k pk d : Nat} (hpk : pk = p + k)
    (rel : FVec Ideal ⟨2, ![n, p]⟩ .f32) (xs : FVec Ideal ⟨2, ![n, k]⟩ .f32) (W : FVec Ideal ⟨2, ![pk, d]⟩ .f32)
    (hcat : Shape.Concatenates [(⟨2, ![n, p]⟩ : Shape), ⟨2, ![n, k]⟩] ⟨2, ![n, pk]⟩ 1)
    (h0 : (⟨2, ![pk, d]⟩ : Shape).Slices ![0, 0] ⟨2, ![p, d]⟩) (h1 : (⟨2, ![pk, d]⟩ : Shape).Slices ![p, 0] ⟨2, ![k, d]⟩) :
    Host.dotGeneral (DotDims.plain n pk d) none
        (concatenate ⟨2, ![n, pk]⟩ 1 [⟨⟨2, ![n, p]⟩, rel⟩, ⟨⟨2, ![n, k]⟩, xs⟩] hcat) W
      = fun i => mm rel (extractStridedSlice ⟨2, ![p, d]⟩ ![0, 0] W h0) (i 0) (i 1)
          + mm xs (extractStridedSlice ⟨2, ![k, d]⟩ ![p, 0] W h1) (i 0) (i 1) := by
  subst hpk
  funext i
  obtain ⟨a, b, rfl⟩ : ∃ (a : Fin n) (b : Fin d), i = ix2 a b := ⟨i 0, i 1, eq_ix2 i⟩
  rw [StackMember.dotGeneral_plain_apply, Fin.sum_univ_add]
  show _ = (∑ c : Fin p, rel (ix2 a c) * extractStridedSlice ⟨2, ![p, d]⟩ ![0, 0] W h0 (ix2 c b))
      + ∑ c : Fin k, xs (ix2 a c) * extractStridedSlice ⟨2, ![k, d]⟩ ![p, 0] W h1 (ix2 c b)
  congr 1
  · refine Finset.sum_congr rfl fun c _ => ?_
    rw [concatenate_pair_apply_left (1 : Fin 2) rel xs hcat (ix2 a (Fin.castAdd k c)) rfl (ix2 a c) (fun ax => by
        match ax with
        | ⟨0, _⟩ => rfl
        | ⟨1, _⟩ => rfl),
      slice2_axis0_apply 0 W h0 c b (Fin.castAdd k c) (by show c.val = 0 + c.val; omega)]
  · refine Finset.sum_congr rfl fun c _ => ?_
    rw [concatenate_pair_apply_right (1 : Fin 2) rel xs hcat (ix2 a (Fin.natAdd p c)) rfl rfl (ix2 a c) (fun ax hne => by
        match ax with
        | ⟨0, _⟩ => rfl
        | ⟨1, _⟩ => exact absurd rfl hne) (by show c.val + p = p + c.val; omega),
      slice2_axis0_apply p W h1 c b (Fin.natAdd p c) (by show p + c.val = p + c.val; rfl)]

end Cert.Layers

end
-- ==== Proof.Bodies.lean ====
/-
  What each of the three kernel bodies stores, as a layer of its loaded blocks (at the extended reals).

  Each body loads its operands whole, cuts them to the half-width format (the identity here), multiplies into a zero
  accumulator, adds a bias row broadcast down the rows, and applies the rectifier by compare / scale / select.
  Read entry by entry these are exactly the layers of `Layers`: the offset predictor on a block of 4000 rows, the
  edge message on a block of 5000 rows (its two products added before the bias), and the node update on a block of
  4000 rows (the block of the input added to the second layer's result).
-/
import proofs.«120043_j67611375173917_1_alg».proof.Proof.Gen.KernelIdeal.Skeleton
import proofs.«120043_j67611375173917_1_alg».proof.Proof.Layers

noncomputable section

namespace Cert.KernelIdeal.Body

open Idealize.ShloMosaic Idealize.ShloMosaic.ValueIdx Cert.KernelIdeal Cert.KernelIdeal.Gen Cert.Layers

/-- The printed dimension records are the plain rows × contraction by contraction × columns product. -/
theorem dims_4000_128_128 : dot_S4000x128_S128x128_S4000x128_1_0_0_1_n_n = DotDims.plain 4000 128 128 := rfl
theorem dims_4000_128_3 : dot_S4000x128_S128x3_S4000x3_1_0_0_1_n_n = DotDims.plain 4000 128 3 := rfl
theorem dims_5000_3_128 : dot_S5000x3_S3x128_S5000x128_1_0_0_1_n_n = DotDims.plain 5000 3 128 := rfl
theorem dims_5000_128_128 : dot_S5000x128_S128x128_S5000x128_1_0_0_1_n_n = DotDims.plain 5000 128 128 := rfl

/-- The first body stores the offset predictor of its block of rows. -/
theorem offset_body (x : Vec Ideal S4000x128 .f32) (W1 : Vec Ideal S128x128 .f32) (b1 : Vec Ideal S128 .f32)
    (W2 : Vec Ideal S128x3 .f32) (b2 : Vec Ideal S3 .f32) :
    k0_pay1 (F := Ideal) x W1 b1 W2 b2 = offsetNet x W1 b1 W2 b2 := by
  unfold k0_pay1
  simp only [dims_4000_128_128, dims_4000_128_3, kernel_mm, kernel_rowBias, kernel_lrelu]
  rfl

/-- The second body stores the edge message of its block of rows. -/
theorem edge_body (rel : Vec Ideal S5000x3 .f32) (xs : Vec Ideal S5000x128 .f32) (Wr : Vec Ideal S3x128 .f32)
    (Wx : Vec Ideal S128x128 .f32) (b : Vec Ideal S128 .f32) :
    k1_pay1 (F := Ideal) rel xs Wr Wx b = edgeNet rel xs Wr Wx b := by
  unfold k1_pay1
  simp only [shapeCast_self, dims_5000_3_128, dims_5000_128_128, kernel_mm, kernel_rowBias, kernel_lrelu]
  rfl

/-- The third body stores the node update of its block of rows. -/
theorem update_body (a : Vec Ideal S4000x128 .f32) (W1 : Vec Ideal S128x128 .f32) (b1 : Vec Ideal S128 .f32)
    (W2 : Vec Ideal S128x128 .f32) (b2 : Vec Ideal S128 .f32) (x : Vec Ideal S4000x128 .f32) :
    k2_pay1 (F := Ideal) a W1 b1 W2 b2 x = updateNet x a W1 b1 W2 b2 := by
  unfold k2_pay1
  simp only [shapeCast_self, dims_4000_128_128, kernel_mm, kernel_rowBias, kernel_lrelu]
  rfl

end Cert.KernelIdeal.Body

end
-- ==== Proof.OffsetArray.lean ====
/-
  The first region's result array. The grid has ten points; point t stages rows 4000·t … 4000·t + 3999 of the
  input and writes back the same rows of the result, and every weight and bias block is the whole array.
  The offset predictor acts row by row, so what point t writes back is block t of the predictor of the WHOLE
  input; the ten blocks tile the 40000 rows, so the array ends as the predictor of the region-entry arrays.
-/
import proofs.«120043_j67611375173917_1_alg».proof.Proof.Gen.KernelIdeal.Frame
import proofs.«120043_j67611375173917_1_alg».proof.Proof.Bodies
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Body Cert.Layers
open Idealize.ShloMosaic.Pipeline (Dat Cfg Window)

-- the TensorCore's buffer contents when the region is entered, whatever they are
variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row-blocked windows sit at block (t, 0), the others at block 0. -/
theorem maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Each weight or bias block is its whole array. -/
theorem wblk0_1 (c : Dev nD) (t : Fin cfg0.N) : iblk0 V c 1 t = V c main_arg3 := by
  obtain ⟨-, -, e0, e1, -⟩ := maps0 t
  funext y
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega
theorem wblk0_2 (c : Dev nD) (t : Fin cfg0.N) : iblk0 V c 2 t = V c main_arg4 := by
  obtain ⟨-, -, -, -, e0, -⟩ := maps0 t
  funext y
  show V c main_arg4 (((cfg0.win 2).blk t).view.emb y) = V c main_arg4 y
  refine congrArg _ (funext fun a => Fin.ext ?_)
  match a with
  | ⟨0, _⟩ => show win0_2.index t (0 : Fin 1) * 128 + 1 * (y 0).val = (y 0).val; rw [e0]; omega
theorem wblk0_3 (c : Dev nD) (t : Fin cfg0.N) : iblk0 V c 3 t = V c main_arg5 := by
  obtain ⟨-, -, -, -, -, e0, e1, -⟩ := maps0 t
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 3 + 1 * (y 1).val = (y 1).val; rw [e1]; omega
theorem wblk0_4 (c : Dev nD) (t : Fin cfg0.N) : iblk0 V c 4 t = V c main_arg6 := by
  obtain ⟨-, -, -, -, -, -, -, e0, -⟩ := maps0 t
  funext y
  show V c main_arg6 (((cfg0.win 4).blk t).view.emb y) = V c main_arg6 y
  refine congrArg _ (funext fun a => Fin.ext ?_)
  match a with
  | ⟨0, _⟩ => show win0_4.index t (0 : Fin 1) * 3 + 1 * (y 0).val = (y 0).val; rw [e0]; omega

/-- Row r of point t's input block is row 4000·t + r of the input. -/
theorem xblk0 (c : Dev nD) (t : Fin cfg0.N) (r : Fin 4000) (R : Fin 40000) (hR : R.val = t.val * 4000 + r.val) (k : Fin 128) :
    iblk0 V c 0 t (ix2 r k) = V c main_arg0 (ix2 R k) := by
  obtain ⟨e0, e1, -⟩ := maps0 t
  show V c main_arg0 (((cfg0.win 0).blk t).view.emb (ix2 r k)) = V c main_arg0 (ix2 R k)
  refine congrArg _ (funext fun a => Fin.ext ?_)
  match a with
  | ⟨0, _⟩ => show win0_0.index t (0 : Fin 2) * 4000 + 1 * r.val = R.val; rw [e0, hR]; omega
  | ⟨1, _⟩ => show win0_0.index t (1 : Fin 2) * 128 + 1 * k.val = k.val; rw [e1]; omega

/-- What point t writes back is block t of the offset predictor of the region-entry arrays. -/
theorem offset_flushed (c : Dev nD) (t : Fin cfg0.N) :
    (dat0 V c).flushed 5 t = ((cfg0.win 5).blk t).view.read (Elt Ideal)
      (offsetNet (V c main_arg0) (V c main_arg3) (V c main_arg4) (V c main_arg5) (V c main_arg6)) := by
  show (cfg0.win 5).cut (grid0.coords t) ((dat0 V c).after 5 t) = _
  rw [after0_5]
  unfold out0_5
  rw [View.canon_unit_zero zero2]
  simp only [View.ld_unit_zero (S := S4000x128) zero2, View.ld_unit_zero (S := S128x128) zero2,
    View.ld_unit_zero (S := S128x3) zero2, View.ld_unit_zero (S := S128) zero1, View.ld_unit_zero (S := S3) zero1]
  rw [offset_body, wblk0_1, wblk0_2, wblk0_3, wblk0_4]
  obtain ⟨-, -, -, -, -, -, -, -, e0, e1⟩ := maps0 t
  have ht : t.val < 10 := t.isLt
  funext j
  obtain ⟨r, q, rfl⟩ : ∃ (r : Fin 4000) (q : Fin 3), j = ix2 r q := ⟨j 0, j 1, eq_ix2 j⟩
  have hr : r.val < 4000 := r.isLt
  have hemb : ((cfg0.win 5).blk t).view.emb (ix2 r q) = ix2 (⟨t.val * 4000 + r.val, by omega⟩ : Fin 40000) q := by
    funext a; apply Fin.ext
    match a with
    | ⟨0, _⟩ => show win0_5.index t (0 : Fin 2) * 4000 + 1 * r.val = t.val * 4000 + r.val; rw [e0]; omega
    | ⟨1, _⟩ => show win0_5.index t (1 : Fin 2) * 3 + 1 * q.val = q.val; rw [e1]; omega
  show offsetNet (iblk0 V c 0 t) (V c main_arg3) (V c main_arg4) (V c main_arg5) (V c main_arg6) (ix2 r q)
    = offsetNet (V c main_arg0) (V c main_arg3) (V c main_arg4) (V c main_arg5) (V c main_arg6) (((cfg0.win 5).blk t).view.emb (ix2 r q))
  rw [hemb]
  exact offsetNet_rows (iblk0 V c 0 t) (V c main_arg0) (V c main_arg3) (V c main_arg4) (V c main_arg5) (V c main_arg6) r _
    (fun k => xblk0 V c t r _ rfl k) q

/-- An index of the result array is in point t's block iff each coordinate is in the block's range on its axis. -/
theorem offset_mem_blk (t : Fin cfg0.N) (i : S40000x3.Idx) :
    i ∈ ((cfg0.win 5).blk t).view.set ↔ ∀ a : Fin 2, win0_5.index t a * S4000x3.size a ≤ (i a).val ∧ (i a).val < win0_5.index t a * S4000x3.size a + S4000x3.size a := by
  show i ∈ ((View.whole main_v4).slice (win0_5.rect t)).set ↔ _
  rw [View.set_slice_whole, Rect.mem_set_unit]
  exact Iff.rfl

/-- Every row of the result is in the block of the point numbered by the row's quotient by 4000. -/
theorem offset_cover (i : S40000x3.Idx) : ∃ t : Fin cfg0.N, (cfg0.win 5).flush t = true ∧ i ∈ ((cfg0.win 5).blk t).view.set := by
  have hi0 : (i 0).val < 40000 := (i 0).isLt
  have hi1 : (i 1).val < 3 := (i 1).isLt
  let t : Fin cfg0.N := ⟨(i 0).val / 4000, by show (i 0).val / 4000 < 10; omega⟩
  obtain ⟨-, -, -, -, -, -, -, -, e0, e1⟩ := maps0 t
  have e0' : win0_5.index t (0 : Fin 2) = (i 0).val / 4000 := e0
  refine ⟨t, flush0_5 t, ?_⟩
  rw [offset_mem_blk]
  intro a
  match a with
  | ⟨0, _⟩ => show win0_5.index t (0 : Fin 2) * 4000 ≤ (i 0).val ∧ (i 0).val < win0_5.index t (0 : Fin 2) * 4000 + 4000; rw [e0']; omega
  | ⟨1, _⟩ => show win0_5.index t (1 : Fin 2) * 3 ≤ (i 1).val ∧ (i 1).val < win0_5.index t (1 : Fin 2) * 3 + 3; rw [e1]; omega

/-- THE FIRST REGION'S RESULT: the offset predictor of the arrays as the region finds them. -/
theorem offset_array (c : Dev nD) :
    (dat0 V c).arrAt 5 cfg0.N = offsetNet (V c main_arg0) (V c main_arg3) (V c main_arg4) (V c main_arg5) (V c main_arg6) :=
  (dat0 V c).arrAt_eq_of_cover 5 _ (fun t _ => offset_flushed V c t) offset_cover

end Cert.KernelIdeal.Arrays

end
-- ==== Proof.EdgeArray.lean ====
/-
  The second region's result array. The grid has 128 points; point t stages rows 5000·t … 5000·t + 4999 of the
  relative positions and of the gathered features and writes back the same rows of the messages, and the two weight
  blocks and the bias block are the whole arrays. The edge message acts row by row, so what point t writes back is
  block t of the message of the WHOLE inputs; the 128 blocks tile the 640000 rows.
-/
import proofs.«120043_j67611375173917_1_alg».proof.Proof.Gen.KernelIdeal.Frame
import proofs.«120043_j67611375173917_1_alg».proof.Proof.Bodies
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Body Cert.Layers
open Idealize.ShloMosaic.Pipeline (Dat Cfg Window)

-- the TensorCore's buffer contents when the region is entered, whatever they are
variable (V : (c : Dev nD) → (b : Ref sig .tc) → Buf (Elt Ideal) ((c : Thread nD τ).loc b))

theorem zero2' : (![0, 0] : Fin 2 → Nat) = fun _ => 0 := funext fun a => by fin_cases a <;> rfl
theorem zero1' : (![0] : Fin 1 → Nat) = fun _ => 0 := funext fun a => by fin_cases a <;> rfl

/-- The printed index maps over the grid: the row-blocked windows sit at block (t, 0), the others at block 0. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Each weight or bias block is its whole array. -/
theorem wblk1_2 (c : Dev nD) (t : Fin cfg1.N) : iblk1 V c 2 t = V c main_v35 := by
  obtain ⟨-, -, -, -, e0, e1, -⟩ := maps1 t
  funext y
  show V c main_v35 (((cfg1.win 2).blk t).view.emb y) = V c main_v35 y
  refine congrArg _ (funext fun a => Fin.ext ?_)
  match a with
  | ⟨0, _⟩ => show win1_2.index t (0 : Fin 2) * 3 + 1 * (y 0).val = (y 0).val; rw [e0]; omega
  | ⟨1, _⟩ => show win1_2.index t (1 : Fin 2) * 128 + 1 * (y 1).val = (y 1).val; rw [e1]; omega
theorem wblk1_3 (c : Dev nD) (t : Fin cfg1.N) : iblk1 V c 3 t = V c main_v36 := by
  obtain ⟨-, -, -, -, -, -, e0, e1, -⟩ := maps1 t
  funext y
  show V c main_v36 (((cfg1.win 3).blk t).view.emb y) = V c main_v36 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega
theorem wblk1_4 (c : Dev nD) (t : Fin cfg1.N) : iblk1 V c 4 t = V c main_arg8 := by
  obtain ⟨-, -, -, -, -, -, -, -, e0, -⟩ := maps1 t
  funext y
  show V c main_arg8 (((cfg1.win 4).blk t).view.emb y) = V c main_arg8 y
  refine congrArg _ (funext fun a => Fin.ext ?_)
  match a with
  | ⟨0, _⟩ => show win1_4.index t (0 : Fin 1) * 128 + 1 * (y 0).val = (y 0).val; rw [e0]; omega

/-- Row r of point t's block of relative positions is row 5000·t + r of the array. -/
theorem relblk1 (c : Dev nD) (t : Fin cfg1.N) (r : Fin 5000) (R : Fin 640000) (hR : R.val = t.val * 5000 + r.val) (k : Fin 3) :
    iblk1 V c 0 t (ix2 r k) = V c main_v27 (ix2 R k) := by
  obtain ⟨e0, e1, -⟩ := maps1 t
  show V c main_v27 (((cfg1.win 0).blk t).view.emb (ix2 r k)) = V c main_v27 (ix2 R k)
  refine congrArg _ (funext fun a => Fin.ext ?_)
  match a with
  | ⟨0, _⟩ => show win1_0.index t (0 : Fin 2) * 5000 + 1 * r.val = R.val; rw [e0, hR]; omega
  | ⟨1, _⟩ => show win1_0.index t (1 : Fin 2) * 3 + 1 * k.val = k.val; rw [e1]; omega

/-- Row r of point t's block of gathered features is row 5000·t + r of the array. -/
theorem xsblk1 (c : Dev nD) (t : Fin cfg1.N) (r : Fin 5000) (R : Fin 640000) (hR : R.val = t.val * 5000 + r.val) (k : Fin 128) :
    iblk1 V c 1 t (ix2 r k) = V c main_v34 (ix2 R k) := by
  obtain ⟨-, -, e0, e1, -⟩ := maps1 t
  show V c main_v34 (((cfg1.win 1).blk t).view.emb (ix2 r k)) = V c main_v34 (ix2 R k)
  refine congrArg _ (funext fun a => Fin.ext ?_)
  match a with
  | ⟨0, _⟩ => show win1_1.index t (0 : Fin 2) * 5000 + 1 * r.val = R.val; rw [e0, hR]; omega
  | ⟨1, _⟩ => show win1_1.index t (1 : Fin 2) * 128 + 1 * k.val = k.val; rw [e1]; omega

/-- What point t writes back is block t of the edge message of the region-entry arrays. -/
theorem edge_flushed (c : Dev nD) (t : Fin cfg1.N) :
    (dat1 V c).flushed 5 t = ((cfg1.win 5).blk t).view.read (Elt Ideal)
      (edgeNet (V c main_v27) (V c main_v34) (V c main_v35) (V c main_v36) (V c main_arg8)) := by
  show (cfg1.win 5).cut (grid1.coords t) ((dat1 V c).after 5 t) = _
  rw [after1_5]
  unfold out1_5
  rw [View.canon_unit_zero zero2']
  simp only [View.ld_unit_zero (S := S5000x3) zero2', View.ld_unit_zero (S := S5000x128) zero2',
    View.ld_unit_zero (S := S3x128) zero2', View.ld_unit_zero (S := S128x128) zero2', View.ld_unit_zero (S := S128) zero1']
  rw [edge_body, wblk1_2, wblk1_3, wblk1_4]
  obtain ⟨-, -, -, -, -, -, -, -, -, e0, e1⟩ := maps1 t
  have ht : t.val < 128 := t.isLt
  funext j
  obtain ⟨r, q, rfl⟩ : ∃ (r : Fin 5000) (q : Fin 128), j = ix2 r q := ⟨j 0, j 1, eq_ix2 j⟩
  have hr : r.val < 5000 := r.isLt
  have hemb : ((cfg1.win 5).blk t).view.emb (ix2 r q) = ix2 (⟨t.val * 5000 + r.val, by omega⟩ : Fin 640000) q := by
    funext a; apply Fin.ext
    match a with
    | ⟨0, _⟩ => show win1_5.index t (0 : Fin 2) * 5000 + 1 * r.val = t.val * 5000 + r.val; rw [e0]; omega
    | ⟨1, _⟩ => show win1_5.index t (1 : Fin 2) * 128 + 1 * q.val = q.val; rw [e1]; omega
  show edgeNet (iblk1 V c 0 t) (iblk1 V c 1 t) (V c main_v35) (V c main_v36) (V c main_arg8) (ix2 r q)
    = edgeNet (V c main_v27) (V c main_v34) (V c main_v35) (V c main_v36) (V c main_arg8) (((cfg1.win 5).blk t).view.emb (ix2 r q))
  rw [hemb]
  exact edgeNet_rows (iblk1 V c 0 t) (V c main_v27) (iblk1 V c 1 t) (V c main_v34) (V c main_v35) (V c main_v36) (V c main_arg8) r _
    (fun k => relblk1 V c t r _ rfl k) (fun k => xsblk1 V c t r _ rfl k) q

/-- An index of the result array is in point t's block iff each coordinate is in the block's range on its axis. -/
theorem edge_mem_blk (t : Fin cfg1.N) (i : S640000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every row of the result is in the block of the point numbered by the row's quotient by 5000. -/
theorem edge_cover (i : S640000x128.Idx) : ∃ t : Fin cfg1.N, (cfg1.win 5).flush t = true ∧ i ∈ ((cfg1.win 5).blk t).view.set := by
  have hi0 : (i 0).val < 640000 := (i 0).isLt
  have hi1 : (i 1).val < 128 := (i 1).isLt
  let t : Fin cfg1.N := ⟨(i 0).val / 5000, by show (i 0).val / 5000 < 128; omega⟩
  obtain ⟨-, -, -, -, -, -, -, -, -, e0, e1⟩ := maps1 t
  have e0' : win1_5.index t (0 : Fin 2) = (i 0).val / 5000 := e0
  refine ⟨t, flush1_5 t, ?_⟩
  rw [edge_mem_blk]
  intro a
  match a with
  | ⟨0, _⟩ => show win1_5.index t (0 : Fin 2) * 5000 ≤ (i 0).val ∧ (i 0).val < win1_5.index t (0 : Fin 2) * 5000 + 5000; rw [e0']; omega
  | ⟨1, _⟩ => show win1_5.index t (1 : Fin 2) * 128 ≤ (i 1).val ∧ (i 1).val < win1_5.index t (1 : Fin 2) * 128 + 128; rw [e1]; omega

/-- THE SECOND REGION'S RESULT: the edge message of the arrays as the region finds them. -/
theorem edge_array (c : Dev nD) :
    (dat1 V c).arrAt 5 cfg1.N = edgeNet (V c main_v27) (V c main_v34) (V c main_v35) (V c main_v36) (V c main_arg8) :=
  (dat1 V c).arrAt_eq_of_cover 5 _ (fun t _ => edge_flushed V c t) edge_cover

end Cert.KernelIdeal.Arrays

end
-- ==== Proof.UpdateArray.lean ====
/-
  The third region's result array. The grid has ten points; point t stages rows 4000·t … 4000·t + 3999 of the
  input and of the aggregate and writes back the same rows of the result; the weight and bias blocks are the whole
  arrays. The node update acts row by row, so what point t writes back is block t of the update of the WHOLE inputs;
  the ten blocks tile the 40000 rows.
-/
import proofs.«120043_j67611375173917_1_alg».proof.Proof.Gen.KernelIdeal.Frame
import proofs.«120043_j67611375173917_1_alg».proof.Proof.Bodies
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Body Cert.Layers
open Idealize.ShloMosaic.Pipeline (Dat Cfg Window)

-- the TensorCore's buffer contents when the region is entered, whatever they are
variable (V : (c : Dev nD) → (b : Ref sig .tc) → Buf (Elt Ideal) ((c : Thread nD τ).loc b))

theorem zero2'' : (![0, 0] : Fin 2 → Nat) = fun _ => 0 := funext fun a => by fin_cases a <;> rfl
theorem zero1'' : (![0] : Fin 1 → Nat) = fun _ => 0 := funext fun a => by fin_cases a <;> rfl

/-- The printed index maps over the grid: the row-blocked windows sit at block (t, 0), the others at block 0. -/
theorem maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Each weight or bias block is its whole array. -/
theorem wblk2_2 (c : Dev nD) (t : Fin cfg2.N) : iblk2 V c 2 t = V c main_arg9 := by
  obtain ⟨-, -, -, -, e0, e1, -⟩ := maps2 t
  funext y
  show V c main_arg9 (((cfg2.win 2).blk t).view.emb y) = V c main_arg9 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega
theorem wblk2_3 (c : Dev nD) (t : Fin cfg2.N) : iblk2 V c 3 t = V c main_arg10 := by
  obtain ⟨-, -, -, -, -, -, e0, -⟩ := maps2 t
  funext y
  show V c main_arg10 (((cfg2.win 3).blk t).view.emb y) = V c main_arg10 y
  refine congrArg _ (funext fun a => Fin.ext ?_)
  match a with
  | ⟨0, _⟩ => show win2_3.index t (0 : Fin 1) * 128 + 1 * (y 0).val = (y 0).val; rw [e0]; omega
theorem wblk2_4 (c : Dev nD) (t : Fin cfg2.N) : iblk2 V c 4 t = V c main_arg11 := by
  obtain ⟨-, -, -, -, -, -, -, e0, e1, -⟩ := maps2 t
  funext y
  show V c main_arg11 (((cfg2.win 4).blk t).view.emb y) = V c main_arg11 y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega
theorem wblk2_5 (c : Dev nD) (t : Fin cfg2.N) : iblk2 V c 5 t = V c main_arg12 := by
  obtain ⟨-, -, -, -, -, -, -, -, -, e0, -⟩ := maps2 t
  funext y
  show V c main_arg12 (((cfg2.win 5).blk t).view.emb y) = V c main_arg12 y
  refine congrArg _ (funext fun a => Fin.ext ?_)
  match a with
  | ⟨0, _⟩ => show win2_5.index t (0 : Fin 1) * 128 + 1 * (y 0).val = (y 0).val; rw [e0]; omega

/-- Row r of point t's input block is row 4000·t + r of the input. -/
theorem xblk2 (c : Dev nD) (t : Fin cfg2.N) (r : Fin 4000) (R : Fin 40000) (hR : R.val = t.val * 4000 + r.val) (k : Fin 128) :
    iblk2 V c 0 t (ix2 r k) = V c main_arg0 (ix2 R k) := by
  obtain ⟨e0, e1, -⟩ := maps2 t
  show V c main_arg0 (((cfg2.win 0).blk t).view.emb (ix2 r k)) = V c main_arg0 (ix2 R k)
  refine congrArg _ (funext fun a => Fin.ext ?_)
  match a with
  | ⟨0, _⟩ => show win2_0.index t (0 : Fin 2) * 4000 + 1 * r.val = R.val; rw [e0, hR]; omega
  | ⟨1, _⟩ => show win2_0.index t (1 : Fin 2) * 128 + 1 * k.val = k.val; rw [e1]; omega

/-- Row r of point t's block of the aggregate is row 4000·t + r of the aggregate. -/
theorem ablk2 (c : Dev nD) (t : Fin cfg2.N) (r : Fin 4000) (R : Fin 40000) (hR : R.val = t.val * 4000 + r.val) (k : Fin 128) :
    iblk2 V c 1 t (ix2 r k) = V c main_v40 (ix2 R k) := by
  obtain ⟨-, -, e0, e1, -⟩ := maps2 t
  show V c main_v40 (((cfg2.win 1).blk t).view.emb (ix2 r k)) = V c main_v40 (ix2 R k)
  refine congrArg _ (funext fun a => Fin.ext ?_)
  match a with
  | ⟨0, _⟩ => show win2_1.index t (0 : Fin 2) * 4000 + 1 * r.val = R.val; rw [e0, hR]; omega
  | ⟨1, _⟩ => show win2_1.index t (1 : Fin 2) * 128 + 1 * k.val = k.val; rw [e1]; omega

/-- What point t writes back is block t of the node update of the region-entry arrays. -/
theorem update_flushed (c : Dev nD) (t : Fin cfg2.N) :
    (dat2 V c).flushed 6 t = ((cfg2.win 6).blk t).view.read (Elt Ideal)
      (updateNet (V c main_arg0) (V c main_v40) (V c main_arg9) (V c main_arg10) (V c main_arg11) (V c main_arg12)) := by
  show (cfg2.win 6).cut (grid2.coords t) ((dat2 V c).after 6 t) = _
  rw [after2_6]
  unfold out2_6
  rw [View.canon_unit_zero zero2'']
  simp only [View.ld_unit_zero (S := S4000x128) zero2'', View.ld_unit_zero (S := S128x128) zero2'',
    View.ld_unit_zero (S := S128) zero1'']
  rw [update_body, wblk2_2, wblk2_3, wblk2_4, wblk2_5]
  obtain ⟨-, -, -, -, -, -, -, -, -, -, e0, e1⟩ := maps2 t
  have ht : t.val < 10 := t.isLt
  funext j
  obtain ⟨r, q, rfl⟩ : ∃ (r : Fin 4000) (q : Fin 128), j = ix2 r q := ⟨j 0, j 1, eq_ix2 j⟩
  have hr : r.val < 4000 := r.isLt
  have hemb : ((cfg2.win 6).blk t).view.emb (ix2 r q) = ix2 (⟨t.val * 4000 + r.val, by omega⟩ : Fin 40000) q := by
    funext a; apply Fin.ext
    match a with
    | ⟨0, _⟩ => show win2_6.index t (0 : Fin 2) * 4000 + 1 * r.val = t.val * 4000 + r.val; rw [e0]; omega
    | ⟨1, _⟩ => show win2_6.index t (1 : Fin 2) * 128 + 1 * q.val = q.val; rw [e1]; omega
  show updateNet (iblk2 V c 0 t) (iblk2 V c 1 t) (V c main_arg9) (V c main_arg10) (V c main_arg11) (V c main_arg12) (ix2 r q)
    = updateNet (V c main_arg0) (V c main_v40) (V c main_arg9) (V c main_arg10) (V c main_arg11) (V c main_arg12) (((cfg2.win 6).blk t).view.emb (ix2 r q))
  rw [hemb]
  exact updateNet_rows (iblk2 V c 0 t) (V c main_arg0) (iblk2 V c 1 t) (V c main_v40) (V c main_arg9) (V c main_arg10) (V c main_arg11) (V c main_arg12) r _
    (fun k => xblk2 V c t r _ rfl k) (fun k => ablk2 V c t r _ rfl k) q

/-- An index of the result array is in point t's block iff each coordinate is in the block's range on its axis. -/
theorem update_mem_blk (t : Fin cfg2.N) (i : S40000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v41).slice (win2_6.rect t)).set ↔ _
  rw [View.set_slice_whole, Rect.mem_set_unit]
  exact Iff.rfl

/-- Every row of the result is in the block of the point numbered by the row's quotient by 4000. -/
theorem update_cover (i : S40000x128.Idx) : ∃ t : Fin cfg2.N, (cfg2.win 6).flush t = true ∧ i ∈ ((cfg2.win 6).blk t).view.set := by
  have hi0 : (i 0).val < 40000 := (i 0).isLt
  have hi1 : (i 1).val < 128 := (i 1).isLt
  let t : Fin cfg2.N := ⟨(i 0).val / 4000, by show (i 0).val / 4000 < 10; omega⟩
  obtain ⟨-, -, -, -, -, -, -, -, -, -, e0, e1⟩ := maps2 t
  have e0' : win2_6.index t (0 : Fin 2) = (i 0).val / 4000 := e0
  refine ⟨t, flush2_6 t, ?_⟩
  rw [update_mem_blk]
  intro a
  match a with
  | ⟨0, _⟩ => show win2_6.index t (0 : Fin 2) * 4000 ≤ (i 0).val ∧ (i 0).val < win2_6.index t (0 : Fin 2) * 4000 + 4000; rw [e0']; omega
  | ⟨1, _⟩ => show win2_6.index t (1 : Fin 2) * 128 ≤ (i 1).val ∧ (i 1).val < win2_6.index t (1 : Fin 2) * 128 + 128; rw [e1]; omega

/-- THE THIRD REGION'S RESULT: the node update of the arrays as the region finds them. -/
theorem update_array (c : Dev nD) :
    (dat2 V c).arrAt 6 cfg2.N
      = updateNet (V c main_arg0) (V c main_v40) (V c main_arg9) (V c main_arg10) (V c main_arg11) (V c main_arg12) :=
  (dat2 V c).arrAt_eq_of_cover 6 _ (fun t _ => update_flushed V c t) update_cover

end Cert.KernelIdeal.Arrays

end
-- ==== Proof.Graph.lean ====
/-
  The message-passing update as ONE function of the thirteen arguments.

  Between the three layers both programs apply the same index bookkeeping, which is carried here as named
  functions and never opened: the two endpoint rows of the edge list; an endpoint made non-negative by adding the
  number of nodes to a negative one, then set as a column of start indices; the gathers of positions, offsets and
  features at those columns; the two row ranges of the edge weights; and the sum of the messages into the rows
  their target endpoints name.
-/
import proofs.«120043_j67611375173917_1_alg».proof.KernelIdeal
import proofs.«120043_j67611375173917_1_alg».proof.Proof.Gen.KernelIdeal
import proofs.«120043_j67611375173917_1_alg».proof.Proof.Layers

noncomputable section

namespace Cert.Graph

open Idealize.ShloMosaic Cert.KernelIdeal Cert.Layers
open Cert.KernelIdeal.Facts₀ Cert.KernelIdeal.Facts

/-- The source endpoints: row 0 of the edge list, as a vector. -/
def srcIdx (ei : IVec S2x640000 32) : IVec S640000 32 :=
  shapeCast S640000 (extractStridedSlice S1x640000 ![0, 0] ei slices_S2x640000_S1x640000_0_0) shapeCasts_S1x640000_S640000

/-- The target endpoints: row 1 of the edge list, as a vector. -/
def dstIdx (ei : IVec S2x640000 32) : IVec S640000 32 :=
  shapeCast S640000 (extractStridedSlice S1x640000 ![1, 0] ei slices_S2x640000_S1x640000_1_0) shapeCasts_S1x640000_S640000

/-- Endpoints as gather start indices: a negative one has the number of nodes added, then all are set as a column. -/
def startCol (v : IVec S640000 32) : IVec S640000x1 32 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 40000#32))) v)

/-- The relative position of each edge: source position minus target position plus the target's predicted offset. -/
def relOf (pos delta : FVec Ideal S40000x3 .f32) (ei : IVec S2x640000 32) :
    FVec Ideal S640000x3 .f32 :=
  addf (subf (Host.gather gather_S40000x3_S640000x1_S640000x3_1_0_n_n_0_1_13 pos (startCol (srcIdx ei)))
      (Host.gather gather_S40000x3_S640000x1_S640000x3_1_0_n_n_0_1_13 pos (startCol (dstIdx ei))))
    (Host.gather gather_S40000x3_S640000x1_S640000x3_1_0_n_n_0_1_13 delta (startCol (dstIdx ei)))

/-- The source node's features of each edge. -/
def featOf (x : FVec Ideal S40000x128 .f32) (ei : IVec S2x640000 32) :
    FVec Ideal S640000x128 .f32 :=
  Host.gather gather_S40000x128_S640000x1_S640000x128_1_0_n_n_0_1_1128 x (startCol (srcIdx ei))

/-- The edge weights' first three rows (those the relative position meets) and the remaining 128 (the features'). -/
def relRows (W : FVec Ideal S131x128 .f32) : FVec Ideal S3x128 .f32 :=
  extractStridedSlice S3x128 ![0, 0] W slices_S131x128_S3x128_0_0
def featRows (W : FVec Ideal S131x128 .f32) : FVec Ideal S128x128 .f32 :=
  extractStridedSlice S128x128 ![3, 0] W slices_S131x128_S128x128_3_0

/-- The messages summed into the rows their target endpoints name, from zero. -/
def aggrOf (ei : IVec S2x640000 32) (msg : FVec Ideal S640000x128 .f32) :
    FVec Ideal S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 (dstIdx ei)) msg

/-- The whole update: offsets, edge messages, their sums per target node, the node update with its residual. -/
def net (x : FVec Ideal S40000x128 .f32) (pos : FVec Ideal S40000x3 .f32)
    (ei : IVec S2x640000 32)
    (Wh1 : FVec Ideal S128x128 .f32) (bh1 : FVec Ideal S128 .f32)
    (Wh2 : FVec Ideal S128x3 .f32) (bh2 : FVec Ideal S3 .f32)
    (Wf1 : FVec Ideal S131x128 .f32) (bf1 : FVec Ideal S128 .f32)
    (Wg1 : FVec Ideal S128x128 .f32) (bg1 : FVec Ideal S128 .f32)
    (Wg2 : FVec Ideal S128x128 .f32) (bg2 : FVec Ideal S128 .f32) :
    FVec Ideal S40000x128 .f32 :=
  updateNet x
    (aggrOf ei (edgeNet (relOf pos (offsetNet x Wh1 bh1 Wh2 bh2) ei) (featOf x ei) (relRows Wf1) (featRows Wf1) bf1))
    Wg1 bg1 Wg2 bg2

end Cert.Graph

end
-- ==== Proof.KernelFold.lean ====
/-
  The idealized kernel's result buffer at the last boundary is the network `Graph.net` of the launch contents.

  The boundary contents are a fold through @main: a host stretch applies its operations to what was there, a region
  replaces its arrays by what its write-backs leave and keeps every other buffer. Read from the end: the result is
  the node update of the input and the aggregate as the third region finds them; the aggregate is the scatter-add,
  in the last stretch, of the second region's result; that is the edge message of the relative positions, gathered
  features and weight rows the middle stretch computed from the first region's result, the predicted offsets.
  Every buffer read on the way that no later stretch or region writes is walked back to where it was written, or to
  the launch memory for an argument.
-/
import proofs.«120043_j67611375173917_1_alg».proof.Proof.Gen.KernelIdeal.Frame
import proofs.«120043_j67611375173917_1_alg».proof.Proof.OffsetArray
import proofs.«120043_j67611375173917_1_alg».proof.Proof.EdgeArray
import proofs.«120043_j67611375173917_1_alg».proof.Proof.UpdateArray
import proofs.«120043_j67611375173917_1_alg».proof.Proof.Graph
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen Cert.KernelIdeal.Arrays Cert.Layers Cert.Graph

variable (m : (ℓ : Loc nD τ sig) → Buf (Elt Ideal) ℓ) (ρ : Dev nD → PrngReg)

/-- A buffer that no operation of a host stretch writes holds after the stretch what it held before. -/
macro "unwritten" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## After the first stretch (the first region's entry) -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0); unwritten
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1); unwritten
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3); unwritten
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4); unwritten
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5); unwritten
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6); unwritten
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7); unwritten
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8); unwritten
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9); unwritten
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10); unwritten
theorem W1_arg11 (c : Dev nD) : W1 m ρ c (Proc.devRef .tc main_arg11) = m ((c : Thread nD τ).loc main_arg11) := by
  show StableHlo.after hostOps0 (W0 m ρ c) (Proc.devRef .tc main_arg11) = W0 m ρ c (Proc.devRef .tc main_arg11); unwritten
theorem W1_arg12 (c : Dev nD) : W1 m ρ c (Proc.devRef .tc main_arg12) = m ((c : Thread nD τ).loc main_arg12) := by
  show StableHlo.after hostOps0 (W0 m ρ c) (Proc.devRef .tc main_arg12) = W0 m ρ c (Proc.devRef .tc main_arg12); unwritten

/-- The first stretch cuts the two endpoint rows out of the edge list. -/
theorem W1_v1 (c : Dev nD) : W1 m ρ c (Proc.devRef .tc main_v1) = srcIdx (m ((c : Thread nD τ).loc main_arg2)) := by
  show StableHlo.after hostOps0 (W0 m ρ c) (Proc.devRef .tc main_v1) = _
  dsimp only [hostOps0]
  after_results
  rfl
theorem W1_v3 (c : Dev nD) : W1 m ρ c (Proc.devRef .tc main_v3) = dstIdx (m ((c : Thread nD τ).loc main_arg2)) := by
  show StableHlo.after hostOps0 (W0 m ρ c) (Proc.devRef .tc main_v3) = _
  dsimp only [hostOps0]
  after_results
  rfl

/-! ## After the first region -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_v1 (c : Dev nD) : W2 m ρ c (Proc.devRef .tc main_v1) = srcIdx (m ((c : Thread nD τ).loc main_arg2)) :=
  (W2_of_ne m ρ c main_v1 (by decide)).trans (W1_v1 m ρ c)
theorem W2_v3 (c : Dev nD) : W2 m ρ c (Proc.devRef .tc main_v3) = dstIdx (m ((c : Thread nD τ).loc main_arg2)) :=
  (W2_of_ne m ρ c main_v3 (by decide)).trans (W1_v3 m ρ c)

/-- The first region leaves the predicted offsets of the launch arrays. -/
theorem W2_v4 (c : Dev nD) : W2 m ρ c (Proc.devRef .tc main_v4)
    = offsetNet (m ((c : Thread nD τ).loc main_arg0)) (m ((c : Thread nD τ).loc main_arg3)) (m ((c : Thread nD τ).loc main_arg4))
        (m ((c : Thread nD τ).loc main_arg5)) (m ((c : Thread nD τ).loc main_arg6)) := by
  refine ((W2_arr m ρ c 5).trans (offset_array (V1 m ρ) c)).trans ?_
  show offsetNet (W1 m ρ c (Proc.devRef .tc main_arg0)) (W1 m ρ c (Proc.devRef .tc main_arg3)) (W1 m ρ c (Proc.devRef .tc main_arg4))
    (W1 m ρ c (Proc.devRef .tc main_arg5)) (W1 m ρ c (Proc.devRef .tc main_arg6)) = _
  rw [W1_arg0, W1_arg3, W1_arg4, W1_arg5, W1_arg6]

/-! ## After the middle stretch (the second region's entry) -/

theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = W2 m ρ c (Proc.devRef .tc main_arg0); unwritten
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = W2 m ρ c (Proc.devRef .tc main_arg8); unwritten
theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = W2 m ρ c (Proc.devRef .tc main_arg9); unwritten
theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = W2 m ρ c (Proc.devRef .tc main_arg10); unwritten
theorem W3_arg11 (c : Dev nD) : W3 m ρ c (Proc.devRef .tc main_arg11) = m ((c : Thread nD τ).loc main_arg11) := by
  refine Eq.trans ?_ (W2_arg11 m ρ c)
  show StableHlo.after hostOps1 (W2 m ρ c) (Proc.devRef .tc main_arg11) = W2 m ρ c (Proc.devRef .tc main_arg11); unwritten
theorem W3_arg12 (c : Dev nD) : W3 m ρ c (Proc.devRef .tc main_arg12) = m ((c : Thread nD τ).loc main_arg12) := by
  refine Eq.trans ?_ (W2_arg12 m ρ c)
  show StableHlo.after hostOps1 (W2 m ρ c) (Proc.devRef .tc main_arg12) = W2 m ρ c (Proc.devRef .tc main_arg12); unwritten
theorem W3_v3 (c : Dev nD) : W3 m ρ c (Proc.devRef .tc main_v3) = dstIdx (m ((c : Thread nD τ).loc main_arg2)) := by
  refine Eq.trans ?_ (W2_v3 m ρ c)
  show StableHlo.after hostOps1 (W2 m ρ c) (Proc.devRef .tc main_v3) = W2 m ρ c (Proc.devRef .tc main_v3); unwritten

/-- The middle stretch computes the relative positions from the positions and the first region's offsets … -/
theorem W3_v27 (c : Dev nD) : W3 m ρ c (Proc.devRef .tc main_v27)
    = relOf (m ((c : Thread nD τ).loc main_arg1))
        (offsetNet (m ((c : Thread nD τ).loc main_arg0)) (m ((c : Thread nD τ).loc main_arg3)) (m ((c : Thread nD τ).loc main_arg4))
          (m ((c : Thread nD τ).loc main_arg5)) (m ((c : Thread nD τ).loc main_arg6)))
        (m ((c : Thread nD τ).loc main_arg2)) := by
  show StableHlo.after hostOps1 (W2 m ρ c) (Proc.devRef .tc main_v27) = _
  dsimp only [hostOps1]
  after_results_simp
  rw [W2_arg1, W2_v1, W2_v3, W2_v4]
  rfl
/-- … the gathered source features … -/
theorem W3_v34 (c : Dev nD) : W3 m ρ c (Proc.devRef .tc main_v34)
    = featOf (m ((c : Thread nD τ).loc main_arg0)) (m ((c : Thread nD τ).loc main_arg2)) := by
  show StableHlo.after hostOps1 (W2 m ρ c) (Proc.devRef .tc main_v34) = _
  dsimp only [hostOps1]
  after_results_simp
  rw [W2_arg0, W2_v1]
  rfl
/-- … and the two row ranges of the edge weights. -/
theorem W3_v35 (c : Dev nD) : W3 m ρ c (Proc.devRef .tc main_v35) = relRows (m ((c : Thread nD τ).loc main_arg7)) := by
  show StableHlo.after hostOps1 (W2 m ρ c) (Proc.devRef .tc main_v35) = _
  dsimp only [hostOps1]
  after_results_simp
  rw [W2_arg7]
  rfl
theorem W3_v36 (c : Dev nD) : W3 m ρ c (Proc.devRef .tc main_v36) = featRows (m ((c : Thread nD τ).loc main_arg7)) := by
  show StableHlo.after hostOps1 (W2 m ρ c) (Proc.devRef .tc main_v36) = _
  dsimp only [hostOps1]
  after_results_simp
  rw [W2_arg7]
  rfl

/-! ## After the second region -/

theorem W4_arg0 (c : Dev nD) : W4 m ρ c (Proc.devRef .tc main_arg0) = m ((c : Thread nD τ).loc main_arg0) :=
  (W4_of_ne m ρ c main_arg0 (by decide)).trans (W3_arg0 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_v3 (c : Dev nD) : W4 m ρ c (Proc.devRef .tc main_v3) = dstIdx (m ((c : Thread nD τ).loc main_arg2)) :=
  (W4_of_ne m ρ c main_v3 (by decide)).trans (W3_v3 m ρ c)

/-- The second region leaves the edge messages. -/
theorem W4_v37 (c : Dev nD) : W4 m ρ c (Proc.devRef .tc main_v37)
    = edgeNet (relOf (m ((c : Thread nD τ).loc main_arg1))
          (offsetNet (m ((c : Thread nD τ).loc main_arg0)) (m ((c : Thread nD τ).loc main_arg3)) (m ((c : Thread nD τ).loc main_arg4))
            (m ((c : Thread nD τ).loc main_arg5)) (m ((c : Thread nD τ).loc main_arg6)))
          (m ((c : Thread nD τ).loc main_arg2)))
        (featOf (m ((c : Thread nD τ).loc main_arg0)) (m ((c : Thread nD τ).loc main_arg2)))
        (relRows (m ((c : Thread nD τ).loc main_arg7))) (featRows (m ((c : Thread nD τ).loc main_arg7)))
        (m ((c : Thread nD τ).loc main_arg8)) := by
  refine ((W4_arr m ρ c 5).trans (edge_array (V3 m ρ) c)).trans ?_
  show edgeNet (W3 m ρ c (Proc.devRef .tc main_v27)) (W3 m ρ c (Proc.devRef .tc main_v34)) (W3 m ρ c (Proc.devRef .tc main_v35))
    (W3 m ρ c (Proc.devRef .tc main_v36)) (W3 m ρ c (Proc.devRef .tc main_arg8)) = _
  rw [W3_v27, W3_v34, W3_v35, W3_v36, W3_arg8]

/-! ## After the last stretch (the third region's entry) -/

theorem W5_arg0 (c : Dev nD) : W5 m ρ c (Proc.devRef .tc main_arg0) = m ((c : Thread nD τ).loc main_arg0) := by
  refine Eq.trans ?_ (W4_arg0 m ρ c)
  show StableHlo.after hostOps2 (W4 m ρ c) (Proc.devRef .tc main_arg0) = W4 m ρ c (Proc.devRef .tc main_arg0); unwritten
theorem W5_arg9 (c : Dev nD) : W5 m ρ c (Proc.devRef .tc main_arg9) = m ((c : Thread nD τ).loc main_arg9) := by
  refine Eq.trans ?_ (W4_arg9 m ρ c)
  show StableHlo.after hostOps2 (W4 m ρ c) (Proc.devRef .tc main_arg9) = W4 m ρ c (Proc.devRef .tc main_arg9); unwritten
theorem W5_arg10 (c : Dev nD) : W5 m ρ c (Proc.devRef .tc main_arg10) = m ((c : Thread nD τ).loc main_arg10) := by
  refine Eq.trans ?_ (W4_arg10 m ρ c)
  show StableHlo.after hostOps2 (W4 m ρ c) (Proc.devRef .tc main_arg10) = W4 m ρ c (Proc.devRef .tc main_arg10); unwritten
theorem W5_arg11 (c : Dev nD) : W5 m ρ c (Proc.devRef .tc main_arg11) = m ((c : Thread nD τ).loc main_arg11) := by
  refine Eq.trans ?_ (W4_arg11 m ρ c)
  show StableHlo.after hostOps2 (W4 m ρ c) (Proc.devRef .tc main_arg11) = W4 m ρ c (Proc.devRef .tc main_arg11); unwritten
theorem W5_arg12 (c : Dev nD) : W5 m ρ c (Proc.devRef .tc main_arg12) = m ((c : Thread nD τ).loc main_arg12) := by
  refine Eq.trans ?_ (W4_arg12 m ρ c)
  show StableHlo.after hostOps2 (W4 m ρ c) (Proc.devRef .tc main_arg12) = W4 m ρ c (Proc.devRef .tc main_arg12); unwritten

/-- The last stretch sums the messages into their target rows. -/
theorem W5_v40 (c : Dev nD) : W5 m ρ c (Proc.devRef .tc main_v40)
    = aggrOf (m ((c : Thread nD τ).loc main_arg2))
        (edgeNet (relOf (m ((c : Thread nD τ).loc main_arg1))
            (offsetNet (m ((c : Thread nD τ).loc main_arg0)) (m ((c : Thread nD τ).loc main_arg3)) (m ((c : Thread nD τ).loc main_arg4))
              (m ((c : Thread nD τ).loc main_arg5)) (m ((c : Thread nD τ).loc main_arg6)))
            (m ((c : Thread nD τ).loc main_arg2)))
          (featOf (m ((c : Thread nD τ).loc main_arg0)) (m ((c : Thread nD τ).loc main_arg2)))
          (relRows (m ((c : Thread nD τ).loc main_arg7))) (featRows (m ((c : Thread nD τ).loc main_arg7)))
          (m ((c : Thread nD τ).loc main_arg8))) := by
  show StableHlo.after hostOps2 (W4 m ρ c) (Proc.devRef .tc main_v40) = _
  dsimp only [hostOps2]
  after_results
  rw [W4_v3, W4_v37]
  rfl

/-! ## After the third region: the result -/

/-- THE KERNEL'S RESULT at the last boundary: the network of the launch contents of the arguments. -/
theorem result_eq (c : Dev nD) : W6 m ρ c (Proc.devRef .tc main_v41)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine ((W6_arr m ρ c 6).trans (update_array (V5 m ρ) c)).trans ?_
  show updateNet (W5 m ρ c (Proc.devRef .tc main_arg0)) (W5 m ρ c (Proc.devRef .tc main_v40)) (W5 m ρ c (Proc.devRef .tc main_arg9))
    (W5 m ρ c (Proc.devRef .tc main_arg10)) (W5 m ρ c (Proc.devRef .tc main_arg11)) (W5 m ρ c (Proc.devRef .tc main_arg12)) = _
  rw [W5_arg0, W5_v40, W5_arg9, W5_arg10, W5_arg11, W5_arg12]
  rfl

end Cert.KernelIdeal.Fold

end
-- ==== Proof.ReferenceValue.lean ====
/-
  The reference's result is the network `Graph.net` of the arguments.

  Stage by stage: its first two products with their biases, the rectifier and the hyperbolic tangent are the offset
  predictor; the index bookkeeping, the gathers and the scatter-add are the shared chains by unfolding; the product of
  the JOINED array (relative positions beside gathered features) with the whole edge weights is, by the join law, the
  sum of the two products with the weights' first three and remaining 128 rows, which is the kernel's form of the
  edge message; the last two products, biases and rectifier with the residual are the node update.
-/
import proofs.«120043_j67611375173917_1_alg».proof.Proof.Gen.ReferenceIdeal.Run
import proofs.«120043_j67611375173917_1_alg».proof.Proof.Gen.ReferenceIdeal.Read
import proofs.«120043_j67611375173917_1_alg».proof.Proof.Graph

noncomputable section

namespace Cert.ReferenceIdeal.RefValue

open Idealize.ShloMosaic Cert.ReferenceIdeal Cert.ReferenceIdeal.Read Cert.Layers Cert.Graph

/-- The printed dimension records are the plain rows × contraction by contraction × columns product. -/
theorem dims_40000_128_128 : dot_S40000x128_S128x128_S40000x128_1_0_0_1_n_n = DotDims.plain 40000 128 128 := rfl
theorem dims_40000_128_3 : dot_S40000x128_S128x3_S40000x3_1_0_0_1_n_n = DotDims.plain 40000 128 3 := rfl
theorem dims_640000_131_128 : dot_S640000x131_S131x128_S640000x128_1_0_0_1_n_n = DotDims.plain 640000 131 128 := rfl

section Stages
variable (x0 : (⟨S40000x128, .f32⟩ : BufTy).Contents (Elt Ideal)) (x1 : (⟨S40000x3, .f32⟩ : BufTy).Contents (Elt Ideal))
  (x2 : (⟨S2x640000, .i32⟩ : BufTy).Contents (Elt Ideal)) (x3 : (⟨S128x128, .f32⟩ : BufTy).Contents (Elt Ideal))
  (x4 : (⟨S128, .f32⟩ : BufTy).Contents (Elt Ideal)) (x5 : (⟨S128x3, .f32⟩ : BufTy).Contents (Elt Ideal))
  (x6 : (⟨S3, .f32⟩ : BufTy).Contents (Elt Ideal)) (x7 : (⟨S131x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal))

/-- The predicted offsets. -/
theorem offsets_eq : val_main_v17 (F := Ideal) x0 x3 x4 x5 x6 = offsetNet x0 x3 x4 x5 x6 := by
  unfold val_main_v17 val_main_v16 val_main_v15 val_main_v14 val_main_v13 val_main_v12 val_main_v11 val_main_v10 val_main_cst_0
    val_main_v9 val_main_v8 val_main_cst val_main_v7 val_main_v6 val_main_v5 val_main_v4
  simp only [dims_40000_128_128, dims_40000_128_3, host_mm]
  rw [host_rowBias, host_rowBias, host_lrelu]
  rfl

/-- The relative positions: the shared chain over the predicted offsets. -/
theorem rel_eq : val_main_v40 (F := Ideal) x0 x1 x2 x3 x4 x5 x6 = relOf x1 (val_main_v17 (F := Ideal) x0 x3 x4 x5 x6) x2 := rfl

/-- The gathered source features: the shared chain. -/
theorem feat_eq : val_main_v47 (F := Ideal) x0 x2 = featOf x0 x2 := rfl

/-- The edge messages: the joined product split by the join law. -/
theorem messages_eq : val_main_v57 (F := Ideal) x0 x1 x2 x3 x4 x5 x6 x7 x8
    = edgeNet (val_main_v40 (F := Ideal) x0 x1 x2 x3 x4 x5 x6) (val_main_v47 (F := Ideal) x0 x2) (relRows x7) (featRows x7) x8 := by
  unfold val_main_v57 val_main_v56 val_main_v55 val_main_cst_9 val_main_v54 val_main_v53 val_main_cst_8 val_main_v52 val_main_v51
    val_main_v50 val_main_v49 val_main_v48
  generalize val_main_v40 (F := Ideal) x0 x1 x2 x3 x4 x5 x6 = rel
  generalize val_main_v47 (F := Ideal) x0 x2 = xs
  rw [dims_640000_131_128,
    host_mm_join (n := 640000) (p := 3) (k := 128) (pk := 131) (d := 128) rfl rel xs x7
      Cert.ReferenceIdeal.Gen.concatenates_S640000x3_S640000x128_S640000x131_d1
      Cert.KernelIdeal.Gen.slices_S131x128_S3x128_0_0 Cert.KernelIdeal.Gen.slices_S131x128_S128x128_3_0]
  rw [host_rowBias, host_lrelu]
  rfl

/-- The aggregate: the shared scatter-add of the messages. -/
theorem aggregate_eq : val_main_v60 (F := Ideal) x0 x1 x2 x3 x4 x5 x6 x7 x8
    = aggrOf x2 (val_main_v57 (F := Ideal) x0 x1 x2 x3 x4 x5 x6 x7 x8) := rfl

/-- The result: the node update of the input and the aggregate. -/
theorem update_eq : val_main_v74 (F := Ideal) x0 x1 x2 x3 x4 x5 x6 x7 x8 x9 x10 x11 x12
    = updateNet x0 (val_main_v60 (F := Ideal) x0 x1 x2 x3 x4 x5 x6 x7 x8) x9 x10 x11 x12 := by
  unfold val_main_v74 val_main_v73 val_main_v72 val_main_v71 val_main_v70 val_main_v69 val_main_v68 val_main_v67 val_main_cst_12
    val_main_v66 val_main_v65 val_main_cst_11 val_main_v64 val_main_v63 val_main_v62 val_main_v61
  generalize val_main_v60 (F := Ideal) x0 x1 x2 x3 x4 x5 x6 x7 x8 = a
  simp only [dims_40000_128_128, host_mm]
  rw [host_rowBias, host_rowBias, host_lrelu]
  rfl

/-- All stages together. -/
theorem net_eq : val_main_v74 (F := Ideal) x0 x1 x2 x3 x4 x5 x6 x7 x8 x9 x10 x11 x12
    = net x0 x1 x2 x3 x4 x5 x6 x7 x8 x9 x10 x11 x12 := by
  rw [update_eq, aggregate_eq, messages_eq, rel_eq, feat_eq, offsets_eq]
  rfl

end Stages

/-- The reference run's result term is the network of the launch contents of the arguments. -/
theorem result_eq (m : (ℓ : Loc nD τ sig) → Buf (Elt Ideal) ℓ) (c : Dev nD) :
    Cert.ReferenceIdeal.Value.res_main_v74 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) :=
  (val_main_v74_eq m c).trans (net_eq _ _ _ _ _ _ _ _ _ _ _ _ _)

end Cert.ReferenceIdeal.RefValue

end
-- ==== Proof.lean ====
/-
  The certificate of a graph message-passing update with three tiled kernels against its array-level reference.

  Both programs compute, over the extended reals, the same network of the thirteen arguments (`Cert.Graph.net`):
  per-node offsets `tanh(lrelu(x·Wh1 + bh1)·Wh2 + bh2)`; per-edge relative positions and source features, gathered at
  the edge list's endpoints; per-edge messages `lrelu(rel·Wf1[0:3] + feat·Wf1[3:131] + bf1)`; their sums per target node;
  and the node update `x + (lrelu(aggr·Wg1 + bg1)·Wg2 + bg2)`.
  The kernel computes each layer block of rows by block of rows (ten, 128 and ten blocks), which changes nothing because
  every layer acts on each row separately. The reference multiplies the JOINED array [rel | feat] by the whole Wf1 where the
  kernel adds two products; the two agree because a finite sum splits at the join. Format changes are the identity at
  the extended reals, and the rectifier's slope is the same word on both sides, so no constant is evaluated.
  The frames are the generated ones (the reference's is its generated run with the result dropped); no rewrite was
  applied by the idealization, so there is nothing to preserve; no step uses that the inputs are finite.
-/
import proofs.«120043_j67611375173917_1_alg».proof.Defs
import proofs.«120043_j67611375173917_1_alg».proof.Proof.Gen.Kernel
import proofs.«120043_j67611375173917_1_alg».proof.Proof.Gen.Kernel.Skeleton
import proofs.«120043_j67611375173917_1_alg».proof.Proof.Gen.Kernel.Launch
import proofs.«120043_j67611375173917_1_alg».proof.Proof.Gen.Kernel.Points
import proofs.«120043_j67611375173917_1_alg».proof.Proof.Gen.Kernel.Frame
import proofs.«120043_j67611375173917_1_alg».proof.Proof.Gen.KernelIdeal
import proofs.«120043_j67611375173917_1_alg».proof.Proof.Gen.KernelIdeal.Skeleton
import proofs.«120043_j67611375173917_1_alg».proof.Proof.Gen.KernelIdeal.Launch
import proofs.«120043_j67611375173917_1_alg».proof.Proof.Gen.KernelIdeal.Points
import proofs.«120043_j67611375173917_1_alg».proof.Proof.Gen.KernelIdeal.Frame
import proofs.«120043_j67611375173917_1_alg».proof.Proof.Gen.ReferenceIdeal
import proofs.«120043_j67611375173917_1_alg».proof.Proof.Gen.ReferenceIdeal.Run
import proofs.«120043_j67611375173917_1_alg».proof.Proof.Gen.ReferenceIdeal.Read
import proofs.«120043_j67611375173917_1_alg».proof.Proof.Gen.Pre_finite_inputs
import proofs.«120043_j67611375173917_1_alg».proof.Proof.KernelRun
import proofs.«120043_j67611375173917_1_alg».proof.Proof.KernelFold
import proofs.«120043_j67611375173917_1_alg».proof.Proof.ReferenceValue
import Idealize.ShloMosaic.Adequacy
import Idealize.ShloMosaic.Init

noncomputable section

namespace Cert.Proof

open Idealize.ShloMosaic Idealize.SL.Sem

/-- From memories that agree on the arguments both idealized programs end with the network of the arguments in their
    result buffer: the kernel by its run and the fold of its boundaries, the reference by its run read stage by stage. -/
theorem algebraic : Cert.algebraic_KernelIdeal_ReferenceIdeal := by
  intro m ρ m' ρ' _ hagree
  refine ⟨fun c => Cert.Graph.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.RefValue.result_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
